-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S67108864 : Shape := ⟨1, ![67108864]⟩
abbrev S_ : Shape := ⟨0, ![]⟩
abbrev S67108864x1 : Shape := ⟨2, ![67108864, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S67108864, .f32⟩
  | .hbm, ⟨2, _⟩ => ⟨S_, .f32⟩
  | .hbm, ⟨3, _⟩ => ⟨S67108864, .f32⟩
  | .hbm, ⟨4, _⟩ => ⟨S67108864, .i1⟩
  | .hbm, ⟨5, _⟩ => ⟨S_, .i32⟩
  | .hbm, ⟨6, _⟩ => ⟨S_, .i32⟩
  | .hbm, ⟨7, _⟩ => ⟨S67108864, .i32⟩
  | .hbm, ⟨8, _⟩ => ⟨S67108864, .i32⟩
  | .hbm, ⟨9, _⟩ => ⟨S67108864, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864, .i32⟩
  | .hbm, ⟨14, _⟩ => ⟨S_, .i32⟩
  | .hbm, ⟨15, _⟩ => ⟨S67108864, .i32⟩
  | .hbm, ⟨16, _⟩ => ⟨S67108864, .i1⟩
  | .hbm, ⟨17, _⟩ => ⟨S_, .i32⟩
  | .hbm, ⟨18, _⟩ => ⟨S67108864, .i32⟩
  | .hbm, ⟨19, _⟩ => ⟨S67108864, .i32⟩
  | .hbm, ⟨20, _⟩ => ⟨S67108864, .i32⟩
  | .hbm, ⟨21, _⟩ => ⟨S67108864x1, .i32⟩
  | .hbm, ⟨22, _⟩ => ⟨S67108864, .i1⟩
  | .hbm, ⟨23, _⟩ => ⟨S_, .i32⟩
  | .hbm, ⟨24, _⟩ => ⟨S67108864, .i32⟩
  | .hbm, ⟨25, _⟩ => ⟨S67108864, .i1⟩
  | .hbm, ⟨26, _⟩ => ⟨S_, .i32⟩
  | .hbm, ⟨27, _⟩ => ⟨S67108864, .i32⟩
  | .hbm, ⟨28, _⟩ => ⟨S67108864, .i32⟩
  | .hbm, ⟨29, _⟩ => ⟨S67108864, .i32⟩
  | .hbm, ⟨30, _⟩ => ⟨S67108864x1, .i32⟩
  | .hbm, ⟨31, _⟩ => ⟨S67108864, .f32⟩
  | .hbm, ⟨32, _⟩ => ⟨S_, .f32⟩
  | .hbm, ⟨33, _⟩ => ⟨S67108864, .f32⟩
  | .hbm, ⟨34, _⟩ => ⟨S67108864, .f32⟩
  | .hbm, ⟨35, _⟩ => ⟨S_, .f32⟩
  | .hbm, ⟨36, _⟩ => ⟨S67108864, .f32⟩
  | .hbm, ⟨37, _⟩ => ⟨S_, .i32⟩
  | .hbm, ⟨38, _⟩ => ⟨S67108864, .i32⟩
  | .hbm, ⟨39, _⟩ => ⟨S67108864, .i1⟩
  | .hbm, ⟨40, _⟩ => ⟨S_, .i32⟩
  | .hbm, ⟨41, _⟩ => ⟨S67108864, .i32⟩
  | .hbm, ⟨42, _⟩ => ⟨S67108864, .i32⟩
  | .hbm, ⟨43, _⟩ => ⟨S67108864, .i32⟩
  | .hbm, ⟨44, _⟩ => ⟨S67108864x1, .i32⟩
  | .hbm, ⟨45, _⟩ => ⟨S67108864, .f32⟩
  | .hbm, ⟨46, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call2_v0 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_c_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  shapeCasts_S8192x8192_S67108864 : S8192x8192.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S8192x8192 : S67108864.ShapeCasts S8192x8192
  gather_S67108864_S67108864x1_S67108864_n_0_n_n_0_1_1_wf : GatherDims.WF S67108864 S67108864x1 S67108864 [] [0] [] [0] [] 1 ![1]
  scatter_S67108864_S67108864x1_S67108864_n_0_0_1_wf : ScatterDims.WF S67108864 S67108864x1 S67108864 [] [0] [0] 1

variable [Facts₀]

def comparator_i32_i32_d0 : BitVec 32 × BitVec 32 → BitVec 32 × BitVec 32 → BitVec 1 :=
  fun l r =>
    let v2 := IntOp.cmpi .slt l.1 r.1
    v2
def gather_S67108864_S67108864x1_S67108864_n_0_n_n_0_1_1 : GatherDims S67108864 S67108864x1 S67108864 where
  offsetDims := []
  collapsedSliceDims := [0]
  operandBatchingDims := []
  startIndicesBatchingDims := []
  startIndexMap := [0]
  indexVectorDim := 1
  sliceSizes := ![1]
  wf := gather_S67108864_S67108864x1_S67108864_n_0_n_n_0_1_1_wf
def scatter_S67108864_S67108864x1_S67108864_n_0_0_1 : ScatterDims S67108864 S67108864x1 S67108864 where
  updateWindowDims := []
  insertedWindowDims := [0]
  scatterDimsToOperandDims := [0]
  indexVectorDim := 1
  wf := scatter_S67108864_S67108864x1_S67108864_n_0_0_1_wf

class Facts : Prop extends Facts₀ where

variable [Facts]
-- ==== Proof.LibScatterSet.lean ====
/-
  A host scatter that SETS (its update function returns the update) one number per index word into a vector, read at
  one element. The scatter is a left fold over the updates in order: update `k` writes its number at the element its
  index word names, read signed, and is dropped when the word names no element of the vector. A write at one element
  leaves every other element as it was, so when exactly one update names element `c` the fold ends with that update's
  number at `c`, whatever the other updates write and in whatever order they come.
-/
import Idealize.ShloMosaic.PureOps.ShapeOps
import Idealize.ShloMosaic.Lib.StableHlo.Predicate

noncomputable section

namespace Cert.LibScatterSet

open Idealize.ShloMosaic Idealize.ShloMosaic.StableHlo.Predicate

/-! ## A fold of single-element writes -/

section Fold
variable {ι κ α : Type}

/-- Writes none of which names element `j` leave it alone. Here `stp` is one write and `tgt n` the element update `n`
    names, if any; all that is asked of a write is that it leaves the elements it does not name as they were. -/
theorem foldl_of_forall_ne (stp : (κ → α) → ι → κ → α) (tgt : ι → Option κ)
    (hother : ∀ r n j, tgt n ≠ some j → stp r n j = r j)
    (l : List ι) (r : κ → α) (j : κ) (h : ∀ n ∈ l, tgt n ≠ some j) : (l.foldl stp r) j = r j := by
  induction l generalizing r with
  | nil => rfl
  | cons a l ih =>
    rw [List.foldl_cons, ih _ (fun n hn => h n (List.mem_cons_of_mem _ hn))]
    exact hother r a j (h a List.mem_cons_self)

/-- Over a list without repeats in which `n₀` is the only update naming element `j`, the fold ends with `n₀`'s number
    at `j`: whatever was there before `n₀`'s write is replaced by it, and the writes after it are elsewhere. -/
theorem foldl_of_unique (stp : (κ → α) → ι → κ → α) (tgt : ι → Option κ) (val : ι → α)
    (hother : ∀ r n j, tgt n ≠ some j → stp r n j = r j) (hhit : ∀ r n j, tgt n = some j → stp r n j = val n)
    (l : List ι) (hl : l.Nodup) (r : κ → α) (j : κ) (n₀ : ι)
    (hn₀ : n₀ ∈ l) (ht : tgt n₀ = some j) (hu : ∀ n ∈ l, tgt n = some j → n = n₀) :
    (l.foldl stp r) j = val n₀ := by
  induction l generalizing r with
  | nil => cases hn₀
  | cons a l ih =>
    rw [List.foldl_cons]
    have hnd := List.nodup_cons.1 hl
    rcases List.mem_cons.1 hn₀ with e | hmem
    · subst e
      have hnot : ∀ n ∈ l, tgt n ≠ some j := fun n hn e =>
        hnd.1 (hu n (List.mem_cons_of_mem _ hn) e ▸ hn)
      rw [foldl_of_forall_ne stp tgt hother l _ j hnot]
      exact hhit r n₀ j ht
    · exact ih hnd.2 _ hmem (fun n hn => hu n (List.mem_cons_of_mem _ hn))

end Fold

/-! ## Where an update lands -/

/-- An update lands on element `i` exactly when, on every operand axis, its window start plus its window coordinate is
    that axis's coordinate of `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split_ifs with h
  · constructor
    · intro e a
      have e2 := congrArg (fun f : s.Idx => (f a).val) (Option.some.inj e)
      simp only at e2
      have := h a
      omega
    · intro e
      congr 1
      funext a
      apply Fin.ext
      have := e a
      have := h a
      show (d.start j idx a + d.window j a).toNat = (i a).val
      omega
  · constructor
    · intro e; exact absurd e (by simp)
    · intro e; exfalso; apply h; intro a
      have := e a
      have := (i a).isLt
      omega

/-- On the vector's one axis an update's window starts at its own index word, read signed. -/
theorem vec_start {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (a : Fin 1) :
    d.start j idx a = (idx (ixP (j 0))).toInt := by
  obtain ⟨uw, iw, sd, iv, wf⟩ := d
  dsimp only at h1 h2 h3 h4
  subst h1 h2 h3 h4
  fin_cases a
  unfold ScatterDims.start
  split_ifs with ha
  · refine congrArg (fun v => (idx v).toInt) ?_
    funext b
    apply Fin.ext
    fin_cases b <;> rfl
  · exact absurd (List.mem_singleton.2 rfl) ha

/-- The vector's one axis is an inserted one: the window coordinate there is zero. -/
theorem vec_window {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (j : (⟨1, ![n]⟩ : Shape).Idx) (a : Fin 1) :
    d.window j a = 0 := by
  obtain ⟨uw, iw, sd, iv, wf⟩ := d
  dsimp only at h1 h2 h3 h4
  subst h1 h2 h3 h4
  fin_cases a
  unfold ScatterDims.window
  split_ifs with ha
  · exact absurd (show _ ∈ ([] : List (Fin 1)) from ha) List.not_mem_nil
  · rfl

/-- Update `j` lands on element `c` of the vector exactly when its index word, read signed, is `c`. -/
theorem resultIdx?_vec_iff {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1) (idx : IVec ⟨2, ![n, 1]⟩ 32) (j : (⟨1, ![n]⟩ : Shape).Idx) (c : Fin C) :
    d.resultIdx? j idx = some (Shape.Idx.ofFin c) ↔ (idx (ixP (j 0))).toInt = (c.val : ℤ) := by
  rw [resultIdx?_eq_some_iff]
  constructor
  · intro e
    have e0 : d.start j idx 0 + (d.window j 0 : ℤ) = (((Shape.Idx.ofFin c : (⟨1, ![C]⟩ : Shape).Idx) 0).val : ℤ) := e 0
    rw [vec_start d h1 h2 h3 h4, vec_window d h1 h2 h3 h4] at e0
    simpa using e0
  · intro e a
    obtain rfl : a = 0 := Subsingleton.elim _ _
    rw [vec_start d h1 h2 h3 h4, vec_window d h1 h2 h3 h4]
    simpa using e

/-! ## The scatter read at an element -/

/-- THE SET-SCATTER AT ELEMENT `c`, when update `e₀` is the one whose index word (read signed) is `c`: that update's
    number. Neither the operand's old element nor any other update shows there. -/
theorem scatter_set_vec_read {α : Type} {C n : Nat} (d : ScatterDims ⟨1, ![C]⟩ ⟨2, ![n, 1]⟩ ⟨1, ![n]⟩)
    (h1 : d.updateWindowDims = []) (h2 : d.insertedWindowDims = [0]) (h3 : d.scatterDimsToOperandDims = [0])
    (h4 : d.indexVectorDim = 1)
    (x : (⟨1, ![C]⟩ : Shape).Idx → α) (idx : IVec ⟨2, ![n, 1]⟩ 32) (upd : (⟨1, ![n]⟩ : Shape).Idx → α)
    (c : Fin C) (e₀ : Fin n) (he₀ : (idx (ixP e₀)).toInt = (c.val : ℤ))
    (hu : ∀ e : Fin n, (idx (ixP e)).toInt = (c.val : ℤ) → e = e₀) :
    Host.scatter d (fun _ b => b) x idx upd (Shape.Idx.ofFin c) = upd (Shape.Idx.ofFin e₀) := by
  unfold Host.scatter
  refine (foldl_of_unique _ (fun k => d.resultIdx? ((⟨1, ![n]⟩ : Shape).rowMajor.symm k) idx)
    (fun k => upd ((⟨1, ![n]⟩ : Shape).rowMajor.symm k)) ?_ ?_ _ (List.nodup_finRange _) x (Shape.Idx.ofFin c)
    ((⟨1, ![n]⟩ : Shape).rowMajor (Shape.Idx.ofFin e₀)) (List.mem_finRange _) ?_ ?_).trans ?_
  · -- a write leaves the elements it does not name
    intro r k j hne
    dsimp only
    cases hk : d.resultIdx? ((⟨1, ![n]⟩ : Shape).rowMajor.symm k) idx with
    | none => rfl
    | some i =>
      have hji : ¬ j = i := fun e => hne (hk.trans (congrArg some e.symm))
      exact if_neg hji
  · -- a write puts the update's number at the element it names
    intro r k j he
    dsimp only
    rw [he]
    exact if_pos rfl
  · rw [Equiv.symm_apply_apply]
    exact (resultIdx?_vec_iff d h1 h2 h3 h4 idx _ c).2 (by simpa using he₀)
  · intro k _ hk
    have he := hu _ ((resultIdx?_vec_iff d h1 h2 h3 h4 idx _ c).1 hk)
    rw [← Equiv.symm_apply_eq, Shape.Idx.eq_ofFin ((⟨1, ![n]⟩ : Shape).rowMajor.symm k), he]
    rfl
  · rw [Equiv.symm_apply_apply]

end Cert.LibScatterSet

end
-- ==== Proof.LibArgsort.lean ====
/-
  A stable sort of two vectors together along their one axis (an argsort: keys carrying an iota), read at a position.
  Both results read their operand through ONE self-map of the positions, the sorting permutation of the pairs under
  the comparator; that map is a bijection of the positions, whatever the comparator and the keys are. So the second
  result of an argsort lists every position exactly once.
-/
import Idealize.ShloMosaic.PureOps.ShapeOps
import Idealize.ShloMosaic.Lib.SortFacts

noncomputable section

namespace Cert.LibArgsort

open Idealize.ShloMosaic

variable {n : Nat} {α β : Type}

/-- The sorting permutation of the pairs `(x k, y k)` under `cmp`: position `k` of the sorted vectors holds the pair
    that stood at position `perm cmp x y k`. -/
def perm (cmp : α × β → α × β → BitVec 1) (x : (⟨1, ![n]⟩ : Shape).Idx → α) (y : (⟨1, ![n]⟩ : Shape).Idx → β) :
    Fin n → Fin n :=
  sortedFrom (fun k k' => cmp (x (Shape.Idx.ofFin k), y (Shape.Idx.ofFin k)) (x (Shape.Idx.ofFin k'), y (Shape.Idx.ofFin k')) == 1#1)

/-- No two sorted positions hold the same source position … -/
theorem perm_injective (cmp : α × β → α × β → BitVec 1) (x : (⟨1, ![n]⟩ : Shape).Idx → α) (y : (⟨1, ![n]⟩ : Shape).Idx → β) :
    Function.Injective (perm cmp x y) := sortedFrom_injective _

/-- … and every source position is held by some sorted position. -/
theorem perm_surjective (cmp : α × β → α × β → BitVec 1) (x : (⟨1, ![n]⟩ : Shape).Idx → α) (y : (⟨1, ![n]⟩ : Shape).Idx → β) :
    Function.Surjective (perm cmp x y) := sortedFrom_surjective _

/-- The first sorted vector at position `j` is the first operand at the source position. -/
theorem sort2_fst_rank1 (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).1 j = x (Shape.Idx.ofFin (perm cmp x y (j 0))) := by
  unfold Host.sort2 perm
  simp

/-- The second sorted vector at position `j` is the second operand at the source position: with `y` an iota, the
    source position itself. -/
theorem sort2_snd_rank1 (cmp : α × β → α × β → BitVec 1) (x : (⟨1, ![n]⟩ : Shape).Idx → α) (y : (⟨1, ![n]⟩ : Shape).Idx → β)
    (j : (⟨1, ![n]⟩ : Shape).Idx) :
    (Host.sort2 ⟨1, ![n]⟩ 0 cmp x y).2 j = y (Shape.Idx.ofFin (perm cmp x y (j 0))) := by
  unfold Host.sort2 perm
  simp

-- From here on the permutation is known only by the facts above: where it sends a sorted position is never computed.
attribute [irreducible] perm

end Cert.LibArgsort

end
-- ==== Proof.RoundTrip.lean ====
/-
  The reference's result at the exact instance, element by element.

  The reference flattens `x` to a vector `flat` of 2²⁶ numbers, marks the nonzero ones (`mask`), sorts the positions by
  the key "0 where nonzero, 1 where zero" carrying an iota (`order`: an argsort), gathers `mask` and `flat` at `order`,
  keeps the gathered number where the gathered mark is set and zero elsewhere (`upd`), scatters those numbers back
  into a vector of zeros at the positions `order` names (`scat`), and folds the vector back into the square.

  Whatever the keys are, `order` lists every position exactly once: `order k = σ k` for a bijection `σ` of the
  positions (the sorting permutation). So update `k` of the scatter carries
  `if flat (σ k) ≠ 0 then flat (σ k) else 0` to position `σ k`, position `c` receives exactly the update `σ⁻¹ c`,
  and ends holding `if flat c ≠ 0 then flat c else 0`: the compress–decompress round trip is the pointwise
  "keep the nonzero entries" map, in which the sort's choice of `σ` no longer shows. Folding back undoes the
  flattening, so the result at `i` is `if x i ≠ 0 then x i else 0`. No property of the numbers is used: the
  statement holds for every extended real.
-/
import proofs.«158093_j69380901700186_1_alg».proof.Proof.Gen.ReferenceIdeal.Run
import proofs.«158093_j69380901700186_1_alg».proof.Proof.LibScatterSet
import proofs.«158093_j69380901700186_1_alg».proof.Proof.LibArgsort
import Idealize.ShloMosaic.PureOps.Ideal
import Idealize.ShloMosaic.Lib.StableHlo.Predicate
import Idealize.ShloMosaic.Lib.Pipeline.Value

noncomputable section

namespace Cert.ReferenceIdeal.RoundTrip

open Cert.ReferenceIdeal Cert.ReferenceIdeal.Gen Idealize.ShloMosaic Idealize.ShloMosaic.TcCoe Idealize.SL.Sem
open Idealize.ShloMosaic.StableHlo.Predicate

/-- The number of entries of the square, and of the flattened vector: 8192 · 8192 = 2²⁶. -/
abbrev N : Nat := 67108864

/-- The zero every stage pads with. -/
abbrev zero : Ideal .f32 := Scalar.ofBits (F := Ideal) .f32 0x00000000#32

variable (x : FVec Ideal S8192x8192 .f32)

/-! ## The stages of the reference, named -/

/-- The square read as a vector, row after row. -/
def flat : FVec Ideal S67108864 .f32 := shapeCast S67108864 x shapeCasts_S8192x8192_S67108864

/-- The vector of zeros. -/
def zeroF : FVec Ideal S67108864 .f32 :=
  broadcastInDim S67108864 ![] bcast_S_S67108864 (constant (F := Ideal) S_ .f32 0x00000000#32)

/-- The mark of the nonzero entries. -/
def mask : IVec S67108864 1 := cmpf .une (flat x) zeroF

/-- The sort key: 0 at a nonzero entry, 1 at a zero one. -/
def keys : IVec S67108864 32 :=
  id (select (mask x) (broadcastInDim S67108864 ![] bcast_S_S67108864 (constantI S_ 32 0#32))
    (broadcastInDim S67108864 ![] bcast_S_S67108864 (constantI S_ 32 1#32)))

/-- The argsort of the keys: the iota carried through the stable sort. -/
def order : IVec S67108864 32 :=
  (Host.sort2 S67108864 0 comparator_i32_i32_d0 (keys x) (iotaInDim S67108864 32 0)).2

/-- The argsort with negative words wrapped (jnp's index normalisation; none is negative here). -/
def norm : IVec S67108864 32 :=
  select (cmpi .slt (order x) (broadcastInDim S67108864 ![] bcast_S_S67108864 (constantI S_ 32 0#32)))
    (addi (order x) (broadcastInDim S67108864 ![] bcast_S_S67108864 (constantI S_ 32 67108864#32))) (order x)

/-- The same as a column of start indices. -/
def col : IVec S67108864x1 32 :=
  broadcastInDim (s := S67108864) S67108864x1 ![0] bcast_S67108864_S67108864x1_0 (norm x)

/-- The compressed values: the entry at the sorted position where it is marked, zero elsewhere. -/
def upd : FVec Ideal S67108864 .f32 :=
  select (Host.gather gather_S67108864_S67108864x1_S67108864_n_0_n_n_0_1_1 (mask x) (col x))
    (Host.gather gather_S67108864_S67108864x1_S67108864_n_0_n_n_0_1_1 (flat x) (col x)) zeroF

/-- The decompressed vector: the values scattered back into zeros at their positions. -/
def scat : FVec Ideal S67108864 .f32 :=
  Host.scatter scatter_S67108864_S67108864x1_S67108864_n_0_0_1 (fun _ b => b) zeroF (col x) (upd x)

/-- The reference run's result term is the scattered vector folded back into the square. -/
theorem res_eq (m : (ℓ : Loc nD τ sig) → Buf (Elt Ideal) ℓ) (c : Dev nD) :
    Cert.ReferenceIdeal.Value.res_main_v29 (F := Ideal) m c
      = shapeCast S8192x8192 (scat (m ((c.tc : Thread nD τ).loc main_arg0))) shapeCasts_S67108864_S8192x8192 := rfl

/-! ## The argsort lists every position once -/

/-- The sorting permutation: sorted position `k` holds the entry that stood at `σ k`. -/
def σ : Fin N → Fin N := LibArgsort.perm comparator_i32_i32_d0 (keys x) (iotaInDim S67108864 32 0)

theorem σ_injective : Function.Injective (σ x) := by
  unfold σ
  exact LibArgsort.perm_injective _ _ _

theorem σ_surjective : Function.Surjective (σ x) := by
  unfold σ
  exact LibArgsort.perm_surjective _ _ _

/-- The argsort at sorted position `k` is the word of `σ k`. -/
theorem order_apply (k : Fin N) : order x (Shape.Idx.ofFin k) = BitVec.ofNat 32 (σ x k).val := by
  unfold order σ
  rw [LibArgsort.sort2_snd_rank1, Shape.Idx.ofFin_zero]
  exact iota_apply _

-- These three facts are all that is used of the permutation; its values are never computed.
attribute [irreducible] σ

/-- A position is far below 2³¹: its word reads the same signed and unsigned. -/
theorem σ_lt (k : Fin N) : (σ x k).val < 2 ^ 31 := by
  have h : (σ x k).val < 67108864 := (σ x k).isLt
  generalize (σ x k).val = v at h
  omega

/-- A small non-negative word is not below zero. -/
theorem slt_zero_small (v : ℕ) (hv : v < 2 ^ 31) : IntOp.cmpi .slt (BitVec.ofNat 32 v) 0#32 = 0#1 := by
  show BitVec.ofBool ((BitVec.ofNat 32 v).slt 0#32) = 0#1
  have h : (BitVec.ofNat 32 v).slt 0#32 = false := by
    simp only [BitVec.slt, toInt_ofNat_small v hv]
    simp
  rw [h]
  rfl

/-- The wrap of negative words changes nothing. -/
theorem norm_apply (k : Fin N) : norm x (Shape.Idx.ofFin k) = BitVec.ofNat 32 (σ x k).val := by
  show Scalar.select (IntOp.cmpi .slt (order x (Shape.Idx.ofFin k)) 0#32)
    (IntOp.addi (order x (Shape.Idx.ofFin k)) 67108864#32) (order x (Shape.Idx.ofFin k)) = _
  rw [order_apply, slt_zero_small _ (σ_lt x k)]
  rfl

/-- The start index in row `k` of the column, read signed, is `σ k`. -/
theorem col_toInt (k : Fin N) : (col x (ixP k)).toInt = ((σ x k).val : ℤ) := by
  unfold col
  rw [bcast_col1, norm_apply, toInt_ofNat_small _ (σ_lt x k)]

/-! ## The gather, the compressed values, the scatter -/

/-- A gather at the column reads its operand at `σ k`: the start index is inside the vector, so the clamp is idle. -/
theorem gather_apply {α : Type} (y : S67108864.Idx → α) (k : Fin N) :
    Host.gather gather_S67108864_S67108864x1_S67108864_n_0_n_n_0_1_1 y (col x) (Shape.Idx.ofFin k)
      = y (Shape.Idx.ofFin (σ x k)) := by
  rw [gather_take gather_S67108864_S67108864x1_S67108864_n_0_n_n_0_1_1 rfl rfl rfl rfl y (col x) k (by omega)]
  refine congrArg (fun p : Fin N => y (Shape.Idx.ofFin p)) (Fin.ext ?_)
  show min (col x (ixP k)).toInt.toNat (67108864 - 1) = (σ x k).val
  rw [col_toInt]
  have h : (σ x k).val < 67108864 := (σ x k).isLt
  generalize (σ x k).val = v at h ⊢
  rw [Int.toNat_natCast]
  exact Nat.min_eq_left (by omega)

/-- Compressed value `k`: the entry at `σ k` where it is marked, zero elsewhere. -/
theorem upd_apply (k : Fin N) :
    upd x (Shape.Idx.ofFin k)
      = Scalar.select (mask x (Shape.Idx.ofFin (σ x k))) (flat x (Shape.Idx.ofFin (σ x k))) zero := by
  show Scalar.select (Host.gather gather_S67108864_S67108864x1_S67108864_n_0_n_n_0_1_1 (mask x) (col x) (Shape.Idx.ofFin k))
    (Host.gather gather_S67108864_S67108864x1_S67108864_n_0_n_n_0_1_1 (flat x) (col x) (Shape.Idx.ofFin k))
    (zeroF (Shape.Idx.ofFin k)) = _
  rw [gather_apply, gather_apply]
  rfl

/-- Position `c` of the decompressed vector receives exactly the compressed value of `σ⁻¹ c`, which is the entry at
    `c` where it is marked and zero elsewhere. -/
theorem scat_apply (c : Fin N) :
    scat x (Shape.Idx.ofFin c) = Scalar.select (mask x (Shape.Idx.ofFin c)) (flat x (Shape.Idx.ofFin c)) zero := by
  obtain ⟨e₀, he₀⟩ := σ_surjective x c
  unfold scat
  rw [LibScatterSet.scatter_set_vec_read scatter_S67108864_S67108864x1_S67108864_n_0_0_1 rfl rfl rfl rfl
    zeroF (col x) (upd x) c e₀ (by rw [col_toInt, he₀]) (fun e he => by
      rw [col_toInt] at he
      exact σ_injective x (Fin.ext (by rw [he₀]; exact_mod_cast he)))]
  rw [upd_apply, he₀]

/-- The decompressed vector, whole: "keep the nonzero entries" of the flattened square. -/
theorem scat_eq :
    scat x = fun j => Scalar.select (FloatOps.cmpf .one (flat x j) zero) (flat x j) zero := by
  funext j
  obtain ⟨c, rfl⟩ : ∃ c : Fin N, j = Shape.Idx.ofFin c := ⟨j 0, Shape.Idx.eq_ofFin j⟩
  rw [scat_apply]
  rfl

/-! ## The result -/

/-- THE REFERENCE'S RESULT at `i`: `x i` where it is nonzero, zero elsewhere. -/
theorem result_eq :
    shapeCast S8192x8192 (scat x) shapeCasts_S67108864_S8192x8192
      = fun i => Scalar.select (FloatOps.cmpf .one (x i) zero) (x i) zero := by
  rw [scat_eq]
  funext i
  have hi : flat x (Shape.reshapeEquiv shapeCasts_S67108864_S8192x8192 i) = x i :=
    congrFun (shapeCast_shapeCast x shapeCasts_S8192x8192_S67108864 shapeCasts_S67108864_S8192x8192) i
  show Scalar.select (FloatOps.cmpf .one (flat x (Shape.reshapeEquiv shapeCasts_S67108864_S8192x8192 i)) zero)
    (flat x (Shape.reshapeEquiv shapeCasts_S67108864_S8192x8192 i)) zero = _
  rw [hi]

end Cert.ReferenceIdeal.RoundTrip

end
-- ==== Proof.lean ====
/-
  The kernel keeps the nonzero entries of an 8192 × 8192 array and writes zero over the rest, block of 256 rows by
  block of 256 rows: at every index the result is `x i` where `x i ≠ 0` and `0` elsewhere. Its 32 blocks tile the array,
  so the whole result is that one pointwise function of `x` (the generated value leg's closed form).

  The reference computes the same array by a detour: it flattens `x`, sorts the positions so that the nonzero entries
  come first (a stable argsort of a 0/1 key), gathers the entries in that order keeping the marked ones, and scatters
  them back into a vector of zeros at the positions they came from. The argsort is a bijection of the positions, so
  every position receives exactly its own entry if it was nonzero and a zero otherwise, and the order the sort chose
  cancels (Proof/RoundTrip.lean, over the scatter and argsort read at a position in Proof/LibScatterSet.lean and
  Proof/LibArgsort.lean). Both sides are therefore the same function of `x` at every extended real: no finiteness of
  the input is used, and the two comparisons ("ordered and different" in the kernel, "unordered or different" in the
  reference) are one test on the extended reals, where every two numbers are ordered.

  The idealization rewrote no operation of the kernel, so it is the kernel's own text read over the extended reals.
-/
import proofs.«158093_j69380901700186_1_alg».proof.Defs
import proofs.«158093_j69380901700186_1_alg».proof.Proof.Gen.Kernel.Frame
import proofs.«158093_j69380901700186_1_alg».proof.Proof.Gen.KernelIdeal.Value
import proofs.«158093_j69380901700186_1_alg».proof.Proof.Gen.Pre_finite_inputs
import proofs.«158093_j69380901700186_1_alg».proof.Proof.Gen.ReferenceIdeal.Run
import proofs.«158093_j69380901700186_1_alg».proof.Proof.RoundTrip
import Idealize.ShloMosaic.Adequacy
import Idealize.ShloMosaic.Init

noncomputable section

namespace Cert.Proof

open Idealize.ShloMosaic Idealize.SL.Sem

/-- The idealized kernel runs and leaves `x` as it was: its value run, with the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves `x` as it was: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on `x`, both idealized programs end with `x i` where it is nonzero and `0` elsewhere at
    every index `i`: the kernel block by block, the reference through its sort, gather and scatter, whose
    permutation cancels. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.RoundTrip.res_eq, Cert.ReferenceIdeal.RoundTrip.result_eq, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
